-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S800000x128 .f32) (main_arg2 : IVec S800000 32) (main_arg3 : IVec S800000 32) (main_arg4 : FVec F S256x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S1x128 : Shape := ⟨2, ![1, 128]⟩
abbrev S6400x128 : Shape := ⟨2, ![6400, 128]⟩
abbrev S5000x128 : Shape := ⟨2, ![5000, 128]⟩

abbrev nBuf : Space → Nat
  | .hbm => 33
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S128x128, .f32⟩
  | .hbm, ⟨22, _⟩ => ⟨S128x128, .f32⟩
  | .hbm, ⟨23, _⟩ => ⟨S1x128, .f32⟩
  | .hbm, ⟨24, _⟩ => ⟨S1x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128, .f32⟩
  | .hbm, ⟨31, _⟩ => ⟨S1x128, .f32⟩
  | .hbm, ⟨32, _⟩ => ⟨S50000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S6400x128, .f32⟩
  | .local _ .vmem, ⟨10, _⟩ => ⟨S6400x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x128.size a ≤ S800000x128.size a
  hwx0_7 : ∀ i : grid0.Coords, EltTy.bits .f32 = 32 ∨ (Rect.block (s := S800000x128) S6400x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S6400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x256, .f32⟩
  | .hbm, ⟨22, _⟩ => ⟨S800000x128, .f32⟩
  | .hbm, ⟨23, _⟩ => ⟨S1x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S800000x128, .f32⟩
  | .hbm, ⟨28, _⟩ => ⟨S800000x128, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostValues.lean ====
/-
  What each launch finds in its operand arrays, as terms of the program's arguments.

  Before the edge launch the program normalises the source indices (a negative index counts from the end), gathers the
  source nodes' feature rows, cuts the first layer's [256, 128] weight into its upper and lower halves and gives the two
  bias vectors a leading unit axis. Between the launches it sums the messages into their destination rows, starting from
  zero, and reshapes the second network's biases. No operation writes an argument, and a launch writes only its result.
-/
import proofs.«117070_j24988119728418_1_alg».proof.Proof.Gen.KernelIdeal.Frame
import Idealize.ShloMosaic.Lib.StableHlo.Run
import Idealize.ShloMosaic.PureOps.Ideal

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The source indices as the gather takes them: a negative index has the node count added, then a unit axis. -/
abbrev srcIdx (c : Dev nD) : (⟨S800000x1, .i32⟩ : BufTy).Contents (Elt Ideal) :=
  broadcastInDim S800000x1 ![0] bcast_S800000_S800000x1_0
    (select (cmpi .slt (m ((c : Thread nD τ).loc main_arg2)) (broadcastInDim S800000 ![] bcast_S_S800000 (constantI S_ 32 0#32)))
      (addi (m ((c : Thread nD τ).loc main_arg2)) (broadcastInDim S800000 ![] bcast_S_S800000 (constantI S_ 32 50000#32)))
      (m ((c : Thread nD τ).loc main_arg2)))

/-! ## At the edge launch's entry -/

/-- The gathered source rows. -/
theorem V1_v6 (c : Dev nD) : V1 m ρ c main_v6
    = Host.gather gather_S50000x128_S800000x1_S800000x128_1_0_n_n_0_1_1128 (m ((c : Thread nD τ).loc main_arg0)) (srcIdx m c) := by
  show StableHlo.after hostOps0 (W0 m ρ c) (Proc.devRef .tc main_v6) = _
  after_results
  all_goals rfl

/-- The edge features are the argument. -/
theorem V1_arg1 (c : Dev nD) : V1 m ρ c main_arg1 = m ((c : Thread nD τ).loc main_arg1) := by
  show StableHlo.after hostOps0 (W0 m ρ c) (Proc.devRef .tc main_arg1) = _
  after_results
  all_goals rfl

/-- The first layer's weight, rows 0 to 127. -/
theorem V1_v7 (c : Dev nD) : V1 m ρ c main_v7
    = extractStridedSlice S128x128 ![0, 0] (m ((c : Thread nD τ).loc main_arg4)) slices_S256x128_S128x128_0_0 := by
  show StableHlo.after hostOps0 (W0 m ρ c) (Proc.devRef .tc main_v7) = _
  after_results
  all_goals rfl

/-- The first layer's weight, rows 128 to 255. -/
theorem V1_v8 (c : Dev nD) : V1 m ρ c main_v8
    = extractStridedSlice S128x128 ![128, 0] (m ((c : Thread nD τ).loc main_arg4)) slices_S256x128_S128x128_128_0 := by
  show StableHlo.after hostOps0 (W0 m ρ c) (Proc.devRef .tc main_v8) = _
  after_results
  all_goals rfl

/-- The first layer's bias as a [1, 128] row. -/
theorem V1_v9 (c : Dev nD) : V1 m ρ c main_v9 = shapeCast S1x128 (m ((c : Thread nD τ).loc main_arg5)) shapeCasts_S128_S1x128 := by
  show StableHlo.after hostOps0 (W0 m ρ c) (Proc.devRef .tc main_v9) = _
  after_results
  all_goals rfl

/-- The second layer's weight is the argument. -/
theorem V1_arg6 (c : Dev nD) : V1 m ρ c main_arg6 = m ((c : Thread nD τ).loc main_arg6) := by
  show StableHlo.after hostOps0 (W0 m ρ c) (Proc.devRef .tc main_arg6) = _
  after_results
  all_goals rfl

/-- The second layer's bias as a [1, 128] row. -/
theorem V1_v10 (c : Dev nD) : V1 m ρ c main_v10 = shapeCast S1x128 (m ((c : Thread nD τ).loc main_arg7)) shapeCasts_S128_S1x128 := by
  show StableHlo.after hostOps0 (W0 m ρ c) (Proc.devRef .tc main_v10) = _
  after_results
  all_goals rfl

/-! ## At the node launch's entry -/

/-- An argument the edge launch does not take is, after it, what it was before the first operation. -/
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
  all_goals rfl
theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results
  all_goals rfl
theorem W2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results
  all_goals rfl

/-- The messages summed into their destination rows, from zero: the sum's operand is the edge launch's result array. -/
theorem V3_v14 (c : Dev nD) : V3 m ρ c main_v14
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (m ((c : Thread nD τ).loc main_arg3)))
        ((dat0 (V1 m ρ) c).arrAt 7 cfg0.N) := by
  rw [← W2_arr m ρ c 7, ← W2_arg3 m ρ c]
  show StableHlo.after hostOps1 (W2 m ρ c) (Proc.devRef .tc main_v14) = _
  after_results
  all_goals rfl

/-- The node features, and the node network's weights, are the arguments. -/
theorem V3_arg0 (c : Dev nD) : V3 m ρ c main_arg0 = m ((c : Thread nD τ).loc main_arg0) :=
  ((W4_arr m ρ c 1).trans (((dat1 (V3 m ρ) c).arrAt_in 1 rfl _).trans (A_eq1 (V3 m ρ) c 1))).symm.trans (W4_main_arg0 m ρ c)
theorem V3_arg8 (c : Dev nD) : V3 m ρ c main_arg8 = m ((c : Thread nD τ).loc main_arg8) :=
  ((W4_arr m ρ c 2).trans (((dat1 (V3 m ρ) c).arrAt_in 2 rfl _).trans (A_eq1 (V3 m ρ) c 2))).symm.trans (W4_main_arg8 m ρ c)
theorem V3_arg10 (c : Dev nD) : V3 m ρ c main_arg10 = m ((c : Thread nD τ).loc main_arg10) :=
  ((W4_arr m ρ c 4).trans (((dat1 (V3 m ρ) c).arrAt_in 4 rfl _).trans (A_eq1 (V3 m ρ) c 4))).symm.trans (W4_main_arg10 m ρ c)

/-- The node network's biases as [1, 128] rows. -/
theorem V3_v15 (c : Dev nD) : V3 m ρ c main_v15 = shapeCast S1x128 (m ((c : Thread nD τ).loc main_arg9)) shapeCasts_S128_S1x128 := by
  rw [← W2_arg9 m ρ c]
  show StableHlo.after hostOps1 (W2 m ρ c) (Proc.devRef .tc main_v15) = _
  after_results
  all_goals rfl
theorem V3_v16 (c : Dev nD) : V3 m ρ c main_v16 = shapeCast S1x128 (m ((c : Thread nD τ).loc main_arg11)) shapeCasts_S128_S1x128 := by
  rw [← W2_arg11 m ρ c]
  show StableHlo.after hostOps1 (W2 m ρ c) (Proc.devRef .tc main_v16) = _
  after_results
  all_goals rfl

end Cert.KernelIdeal.HostValues

end
-- ==== Proof.Spec.lean ====
/-
  The arithmetic of the graph convolution, stated once on the extended reals.

  An edge's message is a two-layer perceptron of the source node's feature row `u` and the edge's own feature row `v`:
  `relu (u · Wt + v · Wb + b₁) · W₂ + b₂`, where `Wt` and `Wb` are the upper and lower 128 rows of the first layer's
  [256, 128] weight (so that `u · Wt + v · Wb` is the product of the joined row `[u, v]` with the whole weight: `joined_dot`).
  A node's output is the same perceptron with one input, the node's features added to the sum of the messages sent to it:
  `relu ((s + x) · W₁ + b₁) · W₂ + b₂`.
  `edgeRows` / `nodeRows` apply these row by row to an array of any number of rows (a block of the edge axis or the whole
  axis alike), the operands as a launch takes them: [128, 128] weights and [1, 128] bias rows. `edgeMsg` / `nodeOut` are the
  same on the arguments of the program: the [256, 128] first-layer weight and [128] biases.
-/
import Idealize.ShloMosaic.Lib.ValueIdx

noncomputable section

open scoped BigOperators

namespace Cert.Spec

open Idealize.ShloMosaic Idealize.ShloMosaic.ValueIdx

/-- The edge network on one edge, column `q` of its message. -/
def edgeRow (u v : Fin 128 → EReal) (Wt Wb W₂ : Fin 128 → Fin 128 → EReal) (b₁ b₂ : Fin 128 → EReal) (q : Fin 128) : EReal :=
  (∑ k : Fin 128, max ((∑ a : Fin 128, u a * Wt a k) + (∑ a : Fin 128, v a * Wb a k) + b₁ k) 0 * W₂ k q) + b₂ q

/-- The node network on one node, column `q` of its output: `s` the summed messages, `x` the node's own features. -/
def nodeRow (s x : Fin 128 → EReal) (W₁ W₂ : Fin 128 → Fin 128 → EReal) (b₁ b₂ : Fin 128 → EReal) (q : Fin 128) : EReal :=
  (∑ k : Fin 128, max ((∑ a : Fin 128, (s a + x a) * W₁ a k) + b₁ k) 0 * W₂ k q) + b₂ q

/-- The edge network on every row of `[n, 128]` arrays, the operands as a launch takes them. -/
def edgeRows {n : ℕ} (h ef : FVec Ideal ⟨2, ![n, 128]⟩ .f32) (Wt Wb : FVec Ideal ⟨2, ![128, 128]⟩ .f32)
    (b₁ : FVec Ideal ⟨2, ![1, 128]⟩ .f32) (W₂ : FVec Ideal ⟨2, ![128, 128]⟩ .f32) (b₂ : FVec Ideal ⟨2, ![1, 128]⟩ .f32) :
    FVec Ideal ⟨2, ![n, 128]⟩ .f32 :=
  fun i => edgeRow (fun a => h (ix2 (⟨(i 0).val, idx2_lt0 i⟩ : Fin n) a)) (fun a => ef (ix2 (⟨(i 0).val, idx2_lt0 i⟩ : Fin n) a))
    (fun a k => Wt (ix2 a k)) (fun a k => Wb (ix2 a k)) (fun k q => W₂ (ix2 k q))
    (fun k => b₁ (ix2 (0 : Fin 1) k)) (fun q => b₂ (ix2 (0 : Fin 1) q)) ⟨(i 1).val, idx2_lt1 i⟩

/-- Row `y`, column `q` of `edgeRows` is the edge network on row `y` of the two inputs. -/
theorem edgeRows_ix2 {n : ℕ} (h ef : FVec Ideal ⟨2, ![n, 128]⟩ .f32) (Wt Wb : FVec Ideal ⟨2, ![128, 128]⟩ .f32)
    (b₁ : FVec Ideal ⟨2, ![1, 128]⟩ .f32) (W₂ : FVec Ideal ⟨2, ![128, 128]⟩ .f32) (b₂ : FVec Ideal ⟨2, ![1, 128]⟩ .f32)
    (y : Fin n) (q : Fin 128) :
    edgeRows h ef Wt Wb b₁ W₂ b₂ (ix2 y q)
      = edgeRow (fun a => h (ix2 y a)) (fun a => ef (ix2 y a)) (fun a k => Wt (ix2 a k)) (fun a k => Wb (ix2 a k))
          (fun k q => W₂ (ix2 k q)) (fun k => b₁ (ix2 (0 : Fin 1) k)) (fun q => b₂ (ix2 (0 : Fin 1) q)) q := rfl

/-- The node network on every row of `[n, 128]` arrays, the operands as a launch takes them. -/
def nodeRows {n : ℕ} (s x : FVec Ideal ⟨2, ![n, 128]⟩ .f32) (W₁ : FVec Ideal ⟨2, ![128, 128]⟩ .f32)
    (b₁ : FVec Ideal ⟨2, ![1, 128]⟩ .f32) (W₂ : FVec Ideal ⟨2, ![128, 128]⟩ .f32) (b₂ : FVec Ideal ⟨2, ![1, 128]⟩ .f32) :
    FVec Ideal ⟨2, ![n, 128]⟩ .f32 :=
  fun i => nodeRow (fun a => s (ix2 (⟨(i 0).val, idx2_lt0 i⟩ : Fin n) a)) (fun a => x (ix2 (⟨(i 0).val, idx2_lt0 i⟩ : Fin n) a))
    (fun a k => W₁ (ix2 a k)) (fun k q => W₂ (ix2 k q)) (fun k => b₁ (ix2 (0 : Fin 1) k)) (fun q => b₂ (ix2 (0 : Fin 1) q))
    ⟨(i 1).val, idx2_lt1 i⟩

/-- Row `y`, column `q` of `nodeRows` is the node network on row `y` of the two inputs. -/
theorem nodeRows_ix2 {n : ℕ} (s x : FVec Ideal ⟨2, ![n, 128]⟩ .f32) (W₁ : FVec Ideal ⟨2, ![128, 128]⟩ .f32)
    (b₁ : FVec Ideal ⟨2, ![1, 128]⟩ .f32) (W₂ : FVec Ideal ⟨2, ![128, 128]⟩ .f32) (b₂ : FVec Ideal ⟨2, ![1, 128]⟩ .f32)
    (y : Fin n) (q : Fin 128) :
    nodeRows s x W₁ b₁ W₂ b₂ (ix2 y q)
      = nodeRow (fun a => s (ix2 y a)) (fun a => x (ix2 y a)) (fun a k => W₁ (ix2 a k)) (fun k q => W₂ (ix2 k q))
          (fun k => b₁ (ix2 (0 : Fin 1) k)) (fun q => b₂ (ix2 (0 : Fin 1) q)) q := rfl

/-- Every edge's message from the program's arguments: the first layer's weight whole, the biases as vectors. -/
def edgeMsg (h ef : FVec Ideal ⟨2, ![800000, 128]⟩ .f32) (W1a : FVec Ideal ⟨2, ![256, 128]⟩ .f32)
    (b1a : FVec Ideal ⟨1, ![128]⟩ .f32) (W1b : FVec Ideal ⟨2, ![128, 128]⟩ .f32) (b1b : FVec Ideal ⟨1, ![128]⟩ .f32) :
    FVec Ideal ⟨2, ![800000, 128]⟩ .f32 :=
  fun i => edgeRow (fun a => h (ix2 (⟨(i 0).val, idx2_lt0 i⟩ : Fin 800000) a)) (fun a => ef (ix2 (⟨(i 0).val, idx2_lt0 i⟩ : Fin 800000) a))
    (fun a k => W1a (ix2 (⟨a.val, by omega⟩ : Fin 256) k)) (fun a k => W1a (ix2 (⟨128 + a.val, by omega⟩ : Fin 256) k))
    (fun k q => W1b (ix2 k q)) (fun k => b1a (ix1 k)) (fun q => b1b (ix1 q)) ⟨(i 1).val, idx2_lt1 i⟩

/-- Every node's output from the program's arguments and the summed messages `agg`. -/
def nodeOut (agg nf : FVec Ideal ⟨2, ![50000, 128]⟩ .f32) (W2a : FVec Ideal ⟨2, ![128, 128]⟩ .f32)
    (b2a : FVec Ideal ⟨1, ![128]⟩ .f32) (W2b : FVec Ideal ⟨2, ![128, 128]⟩ .f32) (b2b : FVec Ideal ⟨1, ![128]⟩ .f32) :
    FVec Ideal ⟨2, ![50000, 128]⟩ .f32 :=
  fun i => nodeRow (fun a => agg (ix2 (⟨(i 0).val, idx2_lt0 i⟩ : Fin 50000) a)) (fun a => nf (ix2 (⟨(i 0).val, idx2_lt0 i⟩ : Fin 50000) a))
    (fun a k => W2a (ix2 a k)) (fun k q => W2b (ix2 k q)) (fun k => b2a (ix1 k)) (fun q => b2b (ix1 q)) ⟨(i 1).val, idx2_lt1 i⟩

/-- The product of a joined row `[u, v]` with a [256, ·] weight is the sum of the two halves' products: a sum over
    256 positions split at 128 (addition of extended reals is commutative and associative; nothing here needs finiteness). -/
theorem joined_dot (u v : Fin 128 → EReal) (W : Fin 256 → EReal) :
    (∑ k : Fin 256, (if hk : k.val < 128 then u ⟨k.val, hk⟩ else v ⟨k.val - 128, by omega⟩) * W k)
      = (∑ a : Fin 128, u a * W ⟨a.val, by omega⟩) + ∑ a : Fin 128, v a * W ⟨128 + a.val, by omega⟩ := by
  rw [Fin.sum_univ_add (a := 128) (b := 128)
    (fun k : Fin (128 + 128) => (if hk : k.val < 128 then u ⟨k.val, hk⟩ else v ⟨k.val - 128, by omega⟩) * W k)]
  refine congrArg₂ (· + ·) (Finset.sum_congr rfl fun a _ => ?_) (Finset.sum_congr rfl fun a _ => ?_)
  · have ha : (Fin.castAdd 128 a).val < 128 := a.isLt
    rw [dif_pos ha]; rfl
  · have ha : ¬ (Fin.natAdd 128 a).val < 128 := by show ¬ 128 + a.val < 128; omega
    rw [dif_neg ha]
    refine congrArg₂ (· * ·) (congrArg v (Fin.ext ?_)) rfl
    show 128 + a.val - 128 = a.val; omega

end Cert.Spec

end
-- ==== Proof.Region0Value.lean ====
/-
  The edge launch's result array. Each grid point of the first launch stages 6400 rows of the gathered source features and
  of the edge features beside the five resident operands, and writes back 6400 rows of messages; the 125 blocks tile the
  800000 rows. So after the launch the message array holds, row by row, the edge network of the launch's operand arrays.
-/
import proofs.«117070_j24988119728418_1_alg».proof.Proof.Gen.KernelIdeal.Frame
import proofs.«117070_j24988119728418_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Region0

open Cert.KernelIdeal Cert.KernelIdeal.Gen

variable (V : (c : Dev nD) → (b : Ref sig .tc) → Buf (Elt Ideal) ((c : Thread nD τ).loc b))

/-! ## One product of the block: a [6400, 128] by [128, 128] contraction into a zero accumulator -/

/-- The left operand's row coordinate is the output's row. -/
theorem lhs_blk_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
/-- The left operand's column coordinate is the contraction's. -/
theorem lhs_blk_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
/-- The right operand's row coordinate is the contraction's. -/
theorem rhs_blk_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
/-- The right operand's column coordinate is the output's column. -/
theorem rhs_blk_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- Entry `(p, q)` of the product into a zero accumulator is the dot of row `p` of the left operand with column `q` of the right. -/
theorem matmul_blk_apply {φ₁ φ₂ : FTy} (l : FVec Ideal S6400x128 φ₁) (r : FVec Ideal S128x128 φ₂) (p : Fin 6400) (q : Fin 128) :
    matmul (F := Ideal) dot_S6400x128_S128x128_S6400x128_1_0_0_1_n_n none l r (constant (F := Ideal) S6400x128 .f32 0x00000000#32) (ix2 p q)
      = ∑ k : Fin 128, l (ix2 p k) * r (ix2 k q) := by
  simp only [matmul]
  rw [Ideal.matmul_constant_zero_apply, ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 p q) ((ValueIdx.contrEquiv1 dot_S6400x128_S128x128_S6400x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S6400x128_S128x128_S6400x128_1_0_0_1_n_n.rhsIdx (ix2 p q) ((ValueIdx.contrEquiv1 dot_S6400x128_S128x128_S6400x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-! ## The body's arithmetic at an entry of the block -/

/-- Row `p`, column `q` of what the body stores is the edge network on row `p` of the two staged input blocks, with the
    resident weights and bias rows: the three products are dots over the 128 features, the casts to the narrow format and the
    same-shape reshapes are identities, the bias rows are repeated down the block and the constant `0` is the relu's floor. -/
theorem payload_apply (x0 x1 : FVec Ideal S6400x128 .f32) (x2 x3 : FVec Ideal S128x128 .f32) (x4 : FVec Ideal S1x128 .f32)
    (x5 : FVec Ideal S128x128 .f32) (x6 : FVec Ideal S1x128 .f32) (p : Fin 6400) (q : Fin 128) :
    k0_pay1 (F := Ideal) x0 x1 x2 x3 x4 x5 x6 (ix2 p q)
      = Cert.Spec.edgeRow (fun a => x0 (ix2 p a)) (fun a => x1 (ix2 p a)) (fun a k => x2 (ix2 a k)) (fun a k => x3 (ix2 a k))
          (fun k q => x5 (ix2 k q)) (fun k => x4 (ix2 (0 : Fin 1) k)) (fun q => x6 (ix2 (0 : Fin 1) q)) q := by
  unfold k0_pay1 Cert.Spec.edgeRow
  simp only [addf_apply, maximumf_apply, truncf_apply, broadcast_apply, shapeCast_self, matmul_blk_apply, broadcastTo_1b_ab_apply]
  have hzero : (FloatOps.ofBits (F := Ideal) FTy.f32 0x00000000#32 : EReal) = 0 := Ideal.ofBits_zero_f32
  rw [hzero]

/-! ## What a grid point writes back -/

/-- The body's loads and its store start at the block's corner. -/
theorem offsets_zero : (![0, 0] : Fin 2 → Nat) = fun _ => 0 := funext fun a => by fin_cases a <;> rfl

/-- The printed index maps, decided over the grid: the two row-blocked inputs sit at the output's block, whose row index is
    the point's number, and every other window is at block `(0, 0)`. -/
theorem index_maps : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The edge network of one row depends only on the rows, weights and biases it is given. -/
theorem edgeRow_congr {u u' v v' : Fin 128 → EReal} {Wt Wt' Wb Wb' W₂ W₂' : Fin 128 → Fin 128 → EReal} {b₁ b₁' b₂ b₂' : Fin 128 → EReal}
    (hu : u = u') (hv : v = v') (hWt : Wt = Wt') (hWb : Wb = Wb') (hW₂ : W₂ = W₂') (hb₁ : b₁ = b₁') (hb₂ : b₂ = b₂') (q : Fin 128) :
    Cert.Spec.edgeRow u v Wt Wb W₂ b₁ b₂ q = Cert.Spec.edgeRow u' v' Wt' Wb' W₂' b₁' b₂' q := by
  subst hu hv hWt hWb hW₂ hb₁ hb₂; rfl

/-- Row `p` of point `t`'s block of the gathered features is row `6400 t + p` of the array. -/
theorem emb_src (t : Fin cfg0.N) (p : Fin 6400) (a : Fin 128) (h : t.val * 6400 + p.val < 800000) :
    ((cfg0.win 0).blk t).view.emb (ix2 p a) = ix2 (⟨t.val * 6400 + p.val, h⟩ : Fin 800000) a := by
  obtain ⟨-, -, e0, e1, -⟩ := index_maps t
  funext d; apply Fin.ext
  match d with
  | ⟨0, _⟩ => show win0_0.index t (0 : Fin 2) * 6400 + 1 * p.val = t.val * 6400 + p.val; omega
  | ⟨1, _⟩ => show win0_0.index t (1 : Fin 2) * 128 + 1 * a.val = a.val; omega

/-- Row `p` of point `t`'s block of the edge features is row `6400 t + p` of the array. -/
theorem emb_edge (t : Fin cfg0.N) (p : Fin 6400) (a : Fin 128) (h : t.val * 6400 + p.val < 800000) :
    ((cfg0.win 1).blk t).view.emb (ix2 p a) = ix2 (⟨t.val * 6400 + p.val, h⟩ : Fin 800000) a := by
  obtain ⟨-, -, -, -, e0, e1, -⟩ := index_maps t
  funext d; apply Fin.ext
  match d with
  | ⟨0, _⟩ => show win0_1.index t (0 : Fin 2) * 6400 + 1 * p.val = t.val * 6400 + p.val; omega
  | ⟨1, _⟩ => show win0_1.index t (1 : Fin 2) * 128 + 1 * a.val = a.val; omega

/-- Row `p` of point `t`'s block of the messages is row `6400 t + p` of the array. -/
theorem emb_msg (t : Fin cfg0.N) (p : Fin 6400) (a : Fin 128) (h : t.val * 6400 + p.val < 800000) :
    ((cfg0.win 7).blk t).view.emb (ix2 p a) = ix2 (⟨t.val * 6400 + p.val, h⟩ : Fin 800000) a := by
  obtain ⟨e0, e1, -⟩ := index_maps t
  funext d; apply Fin.ext
  match d with
  | ⟨0, _⟩ => show win0_7.index t (0 : Fin 2) * 6400 + 1 * p.val = t.val * 6400 + p.val; omega
  | ⟨1, _⟩ => show win0_7.index t (1 : Fin 2) * 128 + 1 * a.val = a.val; omega

/-- The resident windows' one block is their whole array. -/
theorem emb_wt (t : Fin cfg0.N) (a k : Fin 128) : ((cfg0.win 2).blk t).view.emb (ix2 a k) = ix2 a k := by
  obtain ⟨-, -, -, -, -, -, e0, e1, -⟩ := index_maps t
  funext d; apply Fin.ext
  match d with
  | ⟨0, _⟩ => show win0_2.index t (0 : Fin 2) * 128 + 1 * a.val = a.val; omega
  | ⟨1, _⟩ => show win0_2.index t (1 : Fin 2) * 128 + 1 * k.val = k.val; omega
theorem emb_wb (t : Fin cfg0.N) (a k : Fin 128) : ((cfg0.win 3).blk t).view.emb (ix2 a k) = ix2 a k := by
  obtain ⟨-, -, -, -, -, -, -, -, e0, e1, -⟩ := index_maps t
  funext d; apply Fin.ext
  match d with
  | ⟨0, _⟩ => show win0_3.index t (0 : Fin 2) * 128 + 1 * a.val = a.val; omega
  | ⟨1, _⟩ => show win0_3.index t (1 : Fin 2) * 128 + 1 * k.val = k.val; omega
theorem emb_b1 (t : Fin cfg0.N) (k : Fin 128) : ((cfg0.win 4).blk t).view.emb (ix2 (0 : Fin 1) k) = ix2 (0 : Fin 1) k := by
  obtain ⟨-, -, -, -, -, -, -, -, -, -, e0, e1, -⟩ := index_maps t
  funext d; apply Fin.ext
  match d with
  | ⟨0, _⟩ => show win0_4.index t (0 : Fin 2) * 1 + 1 * 0 = 0; omega
  | ⟨1, _⟩ => show win0_4.index t (1 : Fin 2) * 128 + 1 * k.val = k.val; omega
theorem emb_w2 (t : Fin cfg0.N) (a k : Fin 128) : ((cfg0.win 5).blk t).view.emb (ix2 a k) = ix2 a k := by
  obtain ⟨-, -, -, -, -, -, -, -, -, -, -, -, e0, e1, -⟩ := index_maps t
  funext d; apply Fin.ext
  match d with
  | ⟨0, _⟩ => show win0_5.index t (0 : Fin 2) * 128 + 1 * a.val = a.val; omega
  | ⟨1, _⟩ => show win0_5.index t (1 : Fin 2) * 128 + 1 * k.val = k.val; omega
theorem emb_b2 (t : Fin cfg0.N) (k : Fin 128) : ((cfg0.win 6).blk t).view.emb (ix2 (0 : Fin 1) k) = ix2 (0 : Fin 1) k := by
  obtain ⟨-, -, -, -, -, -, -, -, -, -, -, -, -, -, e0, e1⟩ := index_maps t
  funext d; apply Fin.ext
  match d with
  | ⟨0, _⟩ => show win0_6.index t (0 : Fin 2) * 1 + 1 * 0 = 0; omega
  | ⟨1, _⟩ => show win0_6.index t (1 : Fin 2) * 128 + 1 * k.val = k.val; omega

/-- What point `t` writes back is block `t` of the edge network of the operand arrays as the launch finds them. -/
theorem flushed_eq (c : Dev nD) (t : Fin cfg0.N) :
    (dat0 (F := Ideal) V c).flushed 7 t
      = ((cfg0.win 7).blk t).view.read (Elt Ideal)
          (Cert.Spec.edgeRows (n := 800000) (V c main_v6) (V c main_arg1) (V c main_v7) (V c main_v8) (V c main_v9)
            (V c main_arg6) (V c main_v10)) := by
  show (cfg0.win 7).cut (grid0.coords t) ((dat0 V c).after 7 t) = _
  rw [after0_7]
  unfold out0_7
  rw [View.canon_unit_zero offsets_zero]
  simp only [View.ld_unit_zero (S := S6400x128) offsets_zero, View.ld_unit_zero (S := S128x128) offsets_zero, View.ld_unit_zero (S := S1x128) offsets_zero]
  funext j
  obtain ⟨p, q, rfl⟩ : ∃ (p : Fin 6400) (q : Fin 128), j = ix2 p q := ⟨j 0, j 1, eq_ix2 j⟩
  have ht : t.val < 125 := lt_of_lt_of_eq t.isLt N_0
  have hrow : t.val * 6400 + p.val < 800000 := by have := p.isLt; omega
  have hx : (win0 7).xinj (grid0.coords t) (ix2 p q) = ix2 p q := funext fun a => by
    match a with
    | ⟨0, _⟩ => rfl
    | ⟨1, _⟩ => rfl
  show k0_pay1 (F := Ideal) (iblk0 V c 0 t) (iblk0 V c 1 t) (iblk0 V c 2 t) (iblk0 V c 3 t) (iblk0 V c 4 t) (iblk0 V c 5 t) (iblk0 V c 6 t)
      ((win0 7).xinj (grid0.coords t) (ix2 p q))
    = Cert.Spec.edgeRows (n := 800000) (V c main_v6) (V c main_arg1) (V c main_v7) (V c main_v8) (V c main_v9) (V c main_arg6) (V c main_v10)
      (((cfg0.win 7).blk t).view.emb (ix2 p q))
  rw [hx, emb_msg t p q hrow, Cert.Spec.edgeRows_ix2]
  refine (payload_apply _ _ _ _ _ _ _ p q).trans ?_
  refine edgeRow_congr (funext fun a => ?_) (funext fun a => ?_) (funext fun a => funext fun k => ?_) (funext fun a => funext fun k => ?_)
    (funext fun a => funext fun k => ?_) (funext fun k => ?_) (funext fun k => ?_) q
  · show V c main_v6 (((cfg0.win 0).blk t).view.emb (ix2 p a)) = _
    rw [emb_src t p a hrow]
  · show V c main_arg1 (((cfg0.win 1).blk t).view.emb (ix2 p a)) = _
    rw [emb_edge t p a hrow]
  · show V c main_v7 (((cfg0.win 2).blk t).view.emb (ix2 a k)) = _
    rw [emb_wt t a k]
  · show V c main_v8 (((cfg0.win 3).blk t).view.emb (ix2 a k)) = _
    rw [emb_wb t a k]
  · show V c main_arg6 (((cfg0.win 5).blk t).view.emb (ix2 a k)) = _
    rw [emb_w2 t a k]
  · show V c main_v9 (((cfg0.win 4).blk t).view.emb (ix2 (0 : Fin 1) k)) = _
    rw [emb_b1 t k]
  · show V c main_v10 (((cfg0.win 6).blk t).view.emb (ix2 (0 : Fin 1) k)) = _
    rw [emb_b2 t k]

/-! ## The blocks tile the array -/

/-- An index of the message array is in point `t`'s block iff each coordinate is in the block's range on its axis. -/
theorem mem_block (t : Fin cfg0.N) (i : S800000x128.Idx) :
    i ∈ ((cfg0.win 7).blk t).view.set ↔ ∀ a : Fin 2, win0_7.index t a * S6400x128.size a ≤ (i a).val ∧ (i a).val < win0_7.index t a * S6400x128.size a + S6400x128.size a := by
  show i ∈ ((View.whole main_v11).slice (win0_7.rect t)).set ↔ _
  rw [View.set_slice_whole, Rect.mem_set_unit]
  exact Iff.rfl

/-- Row `r` of the message array lies in the block of point `r / 6400`, which is written back: 125 blocks of 6400 rows
    are the 800000 rows. -/
theorem covered (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  obtain ⟨t, ht⟩ : ∃ t : Fin cfg0.N, t.val = (i 0).val / 6400 :=
    ⟨⟨(i 0).val / 6400, by show (i 0).val / 6400 < grid0.N; rw [N_0]; omega⟩, rfl⟩
  obtain ⟨e0, e1, -⟩ := index_maps t
  refine ⟨t, flush0_7 t, ?_⟩
  rw [mem_block]
  intro a
  match a with
  | ⟨0, _⟩ => show win0_7.index t (0 : Fin 2) * 6400 ≤ (i 0).val ∧ (i 0).val < win0_7.index t (0 : Fin 2) * 6400 + 6400; omega
  | ⟨1, _⟩ => show win0_7.index t (1 : Fin 2) * 128 ≤ (i 1).val ∧ (i 1).val < win0_7.index t (1 : Fin 2) * 128 + 128; omega

/-- After the edge launch, entered at the contents `V`, the message array holds the edge network of its operand arrays. -/
theorem final (c : Dev nD) :
    (dat0 (F := Ideal) V c).arrAt 7 cfg0.N
      = Cert.Spec.edgeRows (n := 800000) (V c main_v6) (V c main_arg1) (V c main_v7) (V c main_v8) (V c main_v9)
          (V c main_arg6) (V c main_v10) :=
  (dat0 (F := Ideal) V c).arrAt_eq_of_cover 7 _ (fun t _ => flushed_eq V c t) covered

end Cert.KernelIdeal.Region0

end
-- ==== Proof.Region1Value.lean ====
/-
  The node launch's result array. Each grid point of the second launch stages 5000 rows of the summed messages and of the
  node features beside the four resident operands, and writes back 5000 rows of outputs; the 10 blocks tile the 50000 rows.
  So after the launch the output array holds, row by row, the node network of the launch's operand arrays.
-/
import proofs.«117070_j24988119728418_1_alg».proof.Proof.Gen.KernelIdeal.Frame
import proofs.«117070_j24988119728418_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Region1

open Cert.KernelIdeal Cert.KernelIdeal.Gen

variable (V : (c : Dev nD) → (b : Ref sig .tc) → Buf (Elt Ideal) ((c : Thread nD τ).loc b))

/-! ## The block's arithmetic at an index -/

/-- The left operand of a product `[5000, 128] · [128, 128]` is read at the result's row … -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted position; -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted position … -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the result's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product accumulated into the zero block, at row `p` and column `q`: the sum over the 128 contracted positions. -/
theorem matmul_zero_ix2 {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's result at row `p`, column `q` of its block is the node network on row `p` of the two staged blocks. -/
theorem payload_ix2 (x0 x1 : FVec Ideal S5000x128 .f32) (x2 : FVec Ideal S128x128 .f32) (x3 : FVec Ideal S1x128 .f32)
    (x4 : FVec Ideal S128x128 .f32) (x5 : FVec Ideal S1x128 .f32) (p : Fin 5000) (q : Fin 128) :
    k1_pay1 (F := Ideal) x0 x1 x2 x3 x4 x5 (ix2 p q)
      = Cert.Spec.nodeRow (fun a => x0 (ix2 p a)) (fun a => x1 (ix2 p a)) (fun a k => x2 (ix2 a k)) (fun k q => x4 (ix2 k q))
          (fun k => x3 (ix2 (0 : Fin 1) k)) (fun q => x5 (ix2 (0 : Fin 1) q)) q := by
  unfold k1_pay1 Cert.Spec.nodeRow
  refine (addf_apply _ _ _).trans (congrArg₂ (· + ·) ?_ ?_)
  · refine (matmul_zero_ix2 _ _ p q).trans (Finset.sum_congr rfl fun k _ => congrArg₂ (· * ·) ?_ rfl)
    refine (maximumf_apply _ _ _).trans (congrArg₂ max ?_ Ideal.ofBits_zero_f32)
    refine (addf_apply _ _ _).trans (congrArg₂ (· + ·) ?_ ?_)
    · refine (matmul_zero_ix2 _ _ p k).trans (Finset.sum_congr rfl fun a _ => congrArg₂ (· * ·) ?_ rfl)
      rw [shapeCast_self]
      rfl
    · rw [shapeCast_self]
      exact broadcastTo_1b_ab_apply x3 _ p k
  · rw [shapeCast_self]
    exact broadcastTo_1b_ab_apply x5 _ p q

/-! ## What a grid point writes back -/

theorem origin_eq : (![0, 0] : Fin 2 → Nat) = fun _ => 0 := funext fun a => by fin_cases a <;> rfl

/-- The printed index maps, decided over the grid: the two row windows and the output window take block `t` of the rows
    at point `t`, the four resident windows their whole arrays. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The staged block of summed messages at point `t` is rows `5000 t … 5000 t + 4999` of their array. -/
theorem rows_agg (c : Dev nD) (t : Fin cfg1.N) (p : Fin 5000) (a : Fin 128) (r : Fin 50000) (hr : r.val = t.val * 5000 + p.val) :
    (iblk1 (F := Ideal) V c 0 t : FVec Ideal S5000x128 .f32) (ix2 p a) = (V c main_v14 : FVec Ideal S50000x128 .f32) (ix2 r a) := by
  obtain ⟨e0, e1, -⟩ := index_facts t
  unfold iblk1
  rw [View.read_apply]
  show V c main_v14 _ = V c main_v14 _
  congr 1
  funext ax
  apply Fin.ext
  match ax with
  | ⟨0, _⟩ => show win1_0.index t (0 : Fin 2) * 5000 + 1 * p.val = r.val; omega
  | ⟨1, _⟩ => show win1_0.index t (1 : Fin 2) * 128 + 1 * a.val = a.val; omega

/-- The staged block of node features at point `t` is the same rows of the feature array. -/
theorem rows_feat (c : Dev nD) (t : Fin cfg1.N) (p : Fin 5000) (a : Fin 128) (r : Fin 50000) (hr : r.val = t.val * 5000 + p.val) :
    (iblk1 (F := Ideal) V c 1 t : FVec Ideal S5000x128 .f32) (ix2 p a) = (V c main_arg0 : FVec Ideal S50000x128 .f32) (ix2 r a) := by
  obtain ⟨-, -, e0, e1, -⟩ := index_facts t
  unfold iblk1
  rw [View.read_apply]
  show V c main_arg0 _ = V c main_arg0 _
  congr 1
  funext ax
  apply Fin.ext
  match ax with
  | ⟨0, _⟩ => show win1_1.index t (0 : Fin 2) * 5000 + 1 * p.val = r.val; omega
  | ⟨1, _⟩ => show win1_1.index t (1 : Fin 2) * 128 + 1 * a.val = a.val; omega

/-- The first layer's weight is staged whole. -/
theorem whole_w1 (c : Dev nD) (t : Fin cfg1.N) (a k : Fin 128) :
    (iblk1 (F := Ideal) V c 2 t : FVec Ideal S128x128 .f32) (ix2 a k) = (V c main_arg8 : FVec Ideal S128x128 .f32) (ix2 a k) := by
  obtain ⟨-, -, -, -, e0, e1, -⟩ := index_facts t
  unfold iblk1
  rw [View.read_apply]
  show V c main_arg8 _ = V c main_arg8 _
  congr 1
  funext ax
  apply Fin.ext
  match ax with
  | ⟨0, _⟩ => show win1_2.index t (0 : Fin 2) * 128 + 1 * a.val = a.val; omega
  | ⟨1, _⟩ => show win1_2.index t (1 : Fin 2) * 128 + 1 * k.val = k.val; omega

/-- The first layer's bias row is staged whole. -/
theorem whole_b1 (c : Dev nD) (t : Fin cfg1.N) (z : Fin 1) (k : Fin 128) :
    (iblk1 (F := Ideal) V c 3 t : FVec Ideal S1x128 .f32) (ix2 z k) = (V c main_v15 : FVec Ideal S1x128 .f32) (ix2 z k) := by
  obtain ⟨-, -, -, -, -, -, e0, e1, -⟩ := index_facts t
  unfold iblk1
  rw [View.read_apply]
  show V c main_v15 _ = V c main_v15 _
  congr 1
  funext ax
  apply Fin.ext
  match ax with
  | ⟨0, _⟩ => show win1_3.index t (0 : Fin 2) * 1 + 1 * z.val = z.val; omega
  | ⟨1, _⟩ => show win1_3.index t (1 : Fin 2) * 128 + 1 * k.val = k.val; omega

/-- The second layer's weight is staged whole. -/
theorem whole_w2 (c : Dev nD) (t : Fin cfg1.N) (a k : Fin 128) :
    (iblk1 (F := Ideal) V c 4 t : FVec Ideal S128x128 .f32) (ix2 a k) = (V c main_arg10 : FVec Ideal S128x128 .f32) (ix2 a k) := by
  obtain ⟨-, -, -, -, -, -, -, -, e0, e1, -⟩ := index_facts t
  unfold iblk1
  rw [View.read_apply]
  show V c main_arg10 _ = V c main_arg10 _
  congr 1
  funext ax
  apply Fin.ext
  match ax with
  | ⟨0, _⟩ => show win1_4.index t (0 : Fin 2) * 128 + 1 * a.val = a.val; omega
  | ⟨1, _⟩ => show win1_4.index t (1 : Fin 2) * 128 + 1 * k.val = k.val; omega

/-- The second layer's bias row is staged whole. -/
theorem whole_b2 (c : Dev nD) (t : Fin cfg1.N) (z : Fin 1) (k : Fin 128) :
    (iblk1 (F := Ideal) V c 5 t : FVec Ideal S1x128 .f32) (ix2 z k) = (V c main_v16 : FVec Ideal S1x128 .f32) (ix2 z k) := by
  obtain ⟨-, -, -, -, -, -, -, -, -, -, e0, e1, -⟩ := index_facts t
  unfold iblk1
  rw [View.read_apply]
  show V c main_v16 _ = V c main_v16 _
  congr 1
  funext ax
  apply Fin.ext
  match ax with
  | ⟨0, _⟩ => show win1_5.index t (0 : Fin 2) * 1 + 1 * z.val = z.val; omega
  | ⟨1, _⟩ => show win1_5.index t (1 : Fin 2) * 128 + 1 * k.val = k.val; omega

/-- The node network of one node depends on its operands only through their entries. -/
theorem nodeRow_congr {s s' x x' : Fin 128 → EReal} {W₁ W₁' W₂ W₂' : Fin 128 → Fin 128 → EReal} {b₁ b₁' b₂ b₂' : Fin 128 → EReal}
    (hs : ∀ a, s a = s' a) (hx : ∀ a, x a = x' a) (hW₁ : ∀ a k, W₁ a k = W₁' a k) (hW₂ : ∀ k q, W₂ k q = W₂' k q)
    (hb₁ : ∀ k, b₁ k = b₁' k) (hb₂ : ∀ q, b₂ q = b₂' q) (q : Fin 128) :
    Cert.Spec.nodeRow s x W₁ W₂ b₁ b₂ q = Cert.Spec.nodeRow s' x' W₁' W₂' b₁' b₂' q := by
  obtain rfl : s = s' := funext hs
  obtain rfl : x = x' := funext hx
  obtain rfl : W₁ = W₁' := funext fun a => funext (hW₁ a)
  obtain rfl : W₂ = W₂' := funext fun k => funext (hW₂ k)
  obtain rfl : b₁ = b₁' := funext hb₁
  obtain rfl : b₂ = b₂' := funext hb₂
  rfl

/-- Point `t` writes back block `t` of the node network of the arrays as entered. -/
theorem flushed_eq (c : Dev nD) (t : Fin cfg1.N) :
    (dat1 (F := Ideal) V c).flushed 6 t
      = ((cfg1.win 6).blk t).view.read (Elt Ideal)
          (Cert.Spec.nodeRows (n := 50000) (V c main_v14) (V c main_arg0) (V c main_arg8) (V c main_v15) (V c main_arg10)
            (V c main_v16)) := by
  show (cfg1.win 6).cut (grid1.coords t) ((dat1 V c).after 6 t) = _
  rw [after1_6]
  unfold out1_6
  rw [View.canon_unit_zero origin_eq]
  simp only [View.ld_unit_zero (S := S5000x128) origin_eq, View.ld_unit_zero (S := S128x128) origin_eq,
    View.ld_unit_zero (S := S1x128) origin_eq]
  funext y
  have e6 := (index_facts t).2.2.2.2.2.2.2.2.2.2.2.2
  have hN : grid1.N = 10 := N_1
  have ht : t.val < 10 := by have h : t.val < grid1.N := t.isLt; omega
  have hp : (y 0).val < 5000 := (y 0).isLt
  have hq : (y 1).val < 128 := (y 1).isLt
  have hr : t.val * 5000 + (y 0).val < 50000 := by omega
  refine (show _ = k1_pay1 (F := Ideal) (iblk1 V c 0 t) (iblk1 V c 1 t) (iblk1 V c 2 t) (iblk1 V c 3 t) (iblk1 V c 4 t)
      (iblk1 V c 5 t) (ix2 (⟨(y 0).val, hp⟩ : Fin 5000) (⟨(y 1).val, hq⟩ : Fin 128)) from ?_).trans ?_
  · exact congrArg _ (funext fun a => by match a with | ⟨0, _⟩ => rfl | ⟨1, _⟩ => rfl)
  refine (payload_ix2 _ _ _ _ _ _ _ _).trans ?_
  have hemb : ((cfg1.win 6).blk t).view.emb y = ix2 (⟨t.val * 5000 + (y 0).val, hr⟩ : Fin 50000) (⟨(y 1).val, hq⟩ : Fin 128) :=
    funext fun a => Fin.ext (by
      match a with
      | ⟨0, _⟩ => show win1_6.index t (0 : Fin 2) * 5000 + 1 * (y 0).val = t.val * 5000 + (y 0).val; omega
      | ⟨1, _⟩ => show win1_6.index t (1 : Fin 2) * 128 + 1 * (y 1).val = (y 1).val; omega)
  show _ = Cert.Spec.nodeRows (n := 50000) (V c main_v14) (V c main_arg0) (V c main_arg8) (V c main_v15) (V c main_arg10)
      (V c main_v16) (((cfg1.win 6).blk t).view.emb y)
  rw [hemb, Cert.Spec.nodeRows_ix2]
  exact nodeRow_congr (fun a => rows_agg V c t _ a _ rfl) (fun a => rows_feat V c t _ a _ rfl) (fun a k => whole_w1 V c t a k)
    (fun k q => whole_w2 V c t k q) (fun k => whole_b1 V c t 0 k) (fun q => whole_b2 V c t 0 q) _

/-! ## The blocks tile the array -/

/-- An index of the output array is in point `t`'s block iff each coordinate is in the block's range on its axis. -/
theorem mem_block (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v17).slice (win1_6.rect t)).set ↔ _
  rw [View.set_slice_whole, Rect.mem_set_unit]
  exact Iff.rfl

/-- Row `r` of the output array lies in the block of point `r / 5000`. -/
theorem covered (i : S50000x128.Idx) :
    ∃ t : Fin cfg1.N, (cfg1.win 6).flush t = true ∧ i ∈ ((cfg1.win 6).blk t).view.set := by
  have hN : grid1.N = 10 := N_1
  have hi0 : (i 0).val < 50000 := (i 0).isLt
  have hi1 : (i 1).val < 128 := (i 1).isLt
  have hlt : (i 0).val / 5000 < grid1.N := by omega
  obtain ⟨t, ht⟩ : ∃ t : Fin cfg1.N, t.val = (i 0).val / 5000 := ⟨⟨(i 0).val / 5000, hlt⟩, rfl⟩
  have e0 := (index_facts t).2.2.2.2.2.2.2.2.2.2.2.2.1
  have e1 := (index_facts t).2.2.2.2.2.2.2.2.2.2.2.2.2
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the node launch, entered at the contents `V`, the output array holds the node network of its operand arrays. -/
theorem final (c : Dev nD) :
    (dat1 (F := Ideal) V c).arrAt 6 cfg1.N
      = Cert.Spec.nodeRows (n := 50000) (V c main_v14) (V c main_arg0) (V c main_arg8) (V c main_v15) (V c main_arg10)
          (V c main_v16) :=
  (dat1 (F := Ideal) V c).arrAt_eq_of_cover 6 _ (fun t _ => flushed_eq V c t) fun i => covered i

end Cert.KernelIdeal.Region1

end
-- ==== Proof.Bridge.lean ====
/-
  The launches take the first layer's weight as its two halves and every bias as a [1, 128] row; the program's arguments
  are the whole [256, 128] weight and [128] vectors. Row `a` of the upper half is row `a` of the weight and row `a` of the
  lower half is row `128 + a`; column `k` of a bias row is entry `k` of the vector. So the row-by-row networks over the
  launch operands are the networks over the arguments.
-/
import proofs.«117070_j24988119728418_1_alg».proof.Proof.Spec
import Idealize.ShloMosaic.Lib.ValueLayout

noncomputable section

namespace Cert.Spec

open Idealize.ShloMosaic Idealize.ShloMosaic.ValueIdx

/-- The edge network over the weight's two halves and the bias rows is the edge network over the arguments. -/
theorem edgeRows_eq_edgeMsg (h ef : FVec Ideal ⟨2, ![800000, 128]⟩ .f32) (W1a : FVec Ideal ⟨2, ![256, 128]⟩ .f32)
    (b1a : FVec Ideal ⟨1, ![128]⟩ .f32) (W1b : FVec Ideal ⟨2, ![128, 128]⟩ .f32) (b1b : FVec Ideal ⟨1, ![128]⟩ .f32)
    (hs0 : (⟨2, ![256, 128]⟩ : Shape).Slices ![0, 0] ⟨2, ![128, 128]⟩)
    (hs1 : (⟨2, ![256, 128]⟩ : Shape).Slices ![128, 0] ⟨2, ![128, 128]⟩)
    (hc : (⟨1, ![128]⟩ : Shape).ShapeCasts ⟨2, ![1, 128]⟩) :
    edgeRows (n := 800000) h ef (extractStridedSlice ⟨2, ![128, 128]⟩ ![0, 0] W1a hs0)
        (extractStridedSlice ⟨2, ![128, 128]⟩ ![128, 0] W1a hs1) (shapeCast ⟨2, ![1, 128]⟩ b1a hc) W1b
        (shapeCast ⟨2, ![1, 128]⟩ b1b hc)
      = edgeMsg h ef W1a b1a W1b b1b := by
  have eT : (fun (a k : Fin 128) => extractStridedSlice ⟨2, ![128, 128]⟩ ![0, 0] W1a hs0 (ix2 a k))
      = fun a k => W1a (ix2 (⟨a.val, by omega⟩ : Fin 256) k) :=
    funext fun a => funext fun k => slice2_axis0_apply 0 W1a hs0 a k ⟨a.val, by omega⟩ (Nat.zero_add _).symm
  have eB : (fun (a k : Fin 128) => extractStridedSlice ⟨2, ![128, 128]⟩ ![128, 0] W1a hs1 (ix2 a k))
      = fun a k => W1a (ix2 (⟨128 + a.val, by omega⟩ : Fin 256) k) :=
    funext fun a => funext fun k => slice2_axis0_apply 128 W1a hs1 a k ⟨128 + a.val, by omega⟩ rfl
  have e1 : (fun k : Fin 128 => shapeCast ⟨2, ![1, 128]⟩ b1a hc (ix2 (0 : Fin 1) k)) = fun k => b1a (ix1 k) :=
    funext fun k => shapeCast_a_1a_apply b1a hc 0 k
  have e2 : (fun k : Fin 128 => shapeCast ⟨2, ![1, 128]⟩ b1b hc (ix2 (0 : Fin 1) k)) = fun k => b1b (ix1 k) :=
    funext fun k => shapeCast_a_1a_apply b1b hc 0 k
  funext i
  unfold edgeRows edgeMsg
  rw [eT, eB, e1, e2]

/-- The node network over the bias rows is the node network over the arguments. -/
theorem nodeRows_eq_nodeOut (agg nf : FVec Ideal ⟨2, ![50000, 128]⟩ .f32) (W2a : FVec Ideal ⟨2, ![128, 128]⟩ .f32)
    (b2a : FVec Ideal ⟨1, ![128]⟩ .f32) (W2b : FVec Ideal ⟨2, ![128, 128]⟩ .f32) (b2b : FVec Ideal ⟨1, ![128]⟩ .f32)
    (hc : (⟨1, ![128]⟩ : Shape).ShapeCasts ⟨2, ![1, 128]⟩) :
    nodeRows (n := 50000) agg nf W2a (shapeCast ⟨2, ![1, 128]⟩ b2a hc) W2b (shapeCast ⟨2, ![1, 128]⟩ b2b hc)
      = nodeOut agg nf W2a b2a W2b b2b := by
  have e1 : (fun k : Fin 128 => shapeCast ⟨2, ![1, 128]⟩ b2a hc (ix2 (0 : Fin 1) k)) = fun k => b2a (ix1 k) :=
    funext fun k => shapeCast_a_1a_apply b2a hc 0 k
  have e2 : (fun k : Fin 128 => shapeCast ⟨2, ![1, 128]⟩ b2b hc (ix2 (0 : Fin 1) k)) = fun k => b2b (ix1 k) :=
    funext fun k => shapeCast_a_1a_apply b2b hc 0 k
  funext i
  unfold nodeRows nodeOut
  rw [e1, e2]

end Cert.Spec

end
-- ==== Proof.KernelValue.lean ====
/-
  The idealized kernel's result array as one function of its arguments.

  The node launch leaves in the result array the node network, row by row, of the summed messages and the node features;
  the summed messages are the destination-sum, from zero, of the edge launch's result array; and the edge launch leaves in
  its result array the edge network, row by row, of the gathered source rows and the edge features. Reading each launch's
  operands back to the program's arguments gives `result`.
-/
import proofs.«117070_j24988119728418_1_alg».proof.Proof.KernelRun
import proofs.«117070_j24988119728418_1_alg».proof.Proof.HostValues
import proofs.«117070_j24988119728418_1_alg».proof.Proof.Region0Value
import proofs.«117070_j24988119728418_1_alg».proof.Proof.Region1Value
import proofs.«117070_j24988119728418_1_alg».proof.Proof.Bridge

set_option maxRecDepth 16384

noncomputable section

namespace Cert.KernelIdeal.Value

open Cert.KernelIdeal Cert.KernelIdeal.Gen Cert.KernelIdeal.HostValues
open Idealize.ShloMosaic Idealize.ShloMosaic.TcCoe Idealize.SL.Sem

variable (m : (ℓ : Loc nD τ sig) → Buf (Elt Ideal) ℓ) (ρ : Dev nD → PrngReg)

/-- The program's function: the node network over the node features and the messages summed by destination, each message
    the edge network of the gathered source row and the edge's row. -/
def result (c : Dev nD) : Buf (Elt Ideal) ((c : Thread nD τ).loc main_v17) :=
  Cert.Spec.nodeOut
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (m ((c : Thread nD τ).loc main_arg3)))
      (Cert.Spec.edgeMsg
        (Host.gather gather_S50000x128_S800000x1_S800000x128_1_0_n_n_0_1_1128 (m ((c : Thread nD τ).loc main_arg0)) (srcIdx m c))
        (m ((c : Thread nD τ).loc main_arg1)) (m ((c : Thread nD τ).loc main_arg4)) (m ((c : Thread nD τ).loc main_arg5))
        (m ((c : Thread nD τ).loc main_arg6)) (m ((c : Thread nD τ).loc main_arg7))))
    (m ((c : Thread nD τ).loc main_arg0)) (m ((c : Thread nD τ).loc main_arg8)) (m ((c : Thread nD τ).loc main_arg9))
    (m ((c : Thread nD τ).loc main_arg10)) (m ((c : Thread nD τ).loc main_arg11))

/-- The edge launch's result array is every edge's message. -/
theorem messages (c : Dev nD) : (dat0 (V1 m ρ) c).arrAt 7 cfg0.N
    = Cert.Spec.edgeMsg
        (Host.gather gather_S50000x128_S800000x1_S800000x128_1_0_n_n_0_1_1128 (m ((c : Thread nD τ).loc main_arg0)) (srcIdx m c))
        (m ((c : Thread nD τ).loc main_arg1)) (m ((c : Thread nD τ).loc main_arg4)) (m ((c : Thread nD τ).loc main_arg5))
        (m ((c : Thread nD τ).loc main_arg6)) (m ((c : Thread nD τ).loc main_arg7)) := by
  rw [Cert.KernelIdeal.Region0.final (V1 m ρ) c, V1_v6, V1_arg1, V1_v7, V1_v8, V1_v9, V1_arg6, V1_v10]
  exact Cert.Spec.edgeRows_eq_edgeMsg _ _ _ _ _ _ _ _ _

/-- The result array at the last boundary is the program's function of the arguments. -/
theorem W4_v17 (c : Dev nD) : W4 m ρ c (Proc.devRef .tc main_v17) = result m c := by
  refine (W4_arr m ρ c 6).trans ?_
  rw [Cert.KernelIdeal.Region1.final (V3 m ρ) c, V3_v14, V3_arg0, V3_arg8, V3_v15, V3_arg10, V3_v16, messages]
  exact Cert.Spec.nodeRows_eq_nodeOut _ _ _ _ _ _ _

/-- Every weakly fair execution of the idealized kernel terminates with the result array at `result` and the arguments
    unchanged. -/
theorem run : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W4_v17 m ρ c), (h c).2⟩) (Cert.KernelIdeal.Run.run (F := Ideal) m ρ)

end Cert.KernelIdeal.Value

end
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.RefValue.lean ====
/-
  The reference's result as the specification's function of its arguments: the node network of the node features and of the
  messages summed by destination, each message the edge network of the gathered source row and the edge's own row. The
  gather of the source rows, the zero array the sum starts from and the destination indices stay as the reference's own
  stages; everything after the gather and around the sum is read index by index.
-/
import proofs.«117070_j24988119728418_1_alg».proof.Proof.Gen.ReferenceIdeal.Read
import proofs.«117070_j24988119728418_1_alg».proof.Proof.Spec
import proofs.«117070_j24988119728418_1_alg».proof.Proof.LibRowLayout
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open scoped BigOperators

namespace Cert.ReferenceIdeal.RefValue

open Cert.ReferenceIdeal Cert.ReferenceIdeal.Gen Cert.ReferenceIdeal.Read

section Stages

variable (x0 : (⟨S50000x128, .f32⟩ : BufTy).Contents (Elt Ideal)) (x1 : (⟨S800000x128, .f32⟩ : BufTy).Contents (Elt Ideal))
  (x2 x3 : (⟨S800000, .i32⟩ : BufTy).Contents (Elt Ideal)) (x4 : (⟨S256x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x128, .f32⟩ : BufTy).Contents (Elt Ideal))
  (x11 : (⟨S128, .f32⟩ : BufTy).Contents (Elt Ideal))

/-- The joined row of edge `e`: below column 128 the gathered source row, from 128 on the edge's own row. -/
theorem joined_apply (e : Fin 800000) (j : Fin 256) :
    val_main_v7 (F := Ideal) x0 x1 x2 (ix2 e j)
      = if hj : j.val < 128 then val_main_v6 (F := Ideal) x0 x2 (ix2 e ⟨j.val, hj⟩)
        else x1 (ix2 e ⟨j.val - 128, by have := j.isLt; omega⟩) := by
  unfold val_main_v7
  generalize val_main_v6 (F := Ideal) x0 x2 = h
  exact Cert.RowLayout.concatCols_apply h x1 _ rfl e j

/-- The edge network's hidden layer at edge `e`, unit `k`. -/
theorem edge_hidden_apply (e : Fin 800000) (k : Fin 128) :
    val_main_v12 (F := Ideal) x0 x1 x2 x4 x5 (ix2 e k)
      = max ((∑ a : Fin 128, val_main_v6 (F := Ideal) x0 x2 (ix2 e a) * x4 (ix2 (⟨a.val, by omega⟩ : Fin 256) k))
          + (∑ a : Fin 128, x1 (ix2 e a) * x4 (ix2 (⟨128 + a.val, by omega⟩ : Fin 256) k)) + x5 (ix1 k)) 0 := by
  rw [val_main_v12_apply, val_main_v11_apply, val_main_v8_apply, val_main_v10_apply, val_main_v9_apply,
    val_main_call0_v0_apply, val_main_call0_cst_apply]
  have hl : ∀ j : Fin 256, lidx_main_v8 (ix2 e k) j = ix2 e j := fun j => funext fun a => Fin.ext (by
    match a with
    | ⟨0, _⟩ => rfl
    | ⟨1, _⟩ => rfl)
  have hr : ∀ j : Fin 256, ridx_main_v8 (ix2 e k) j = ix2 j k := fun j => funext fun a => Fin.ext (by
    match a with
    | ⟨0, _⟩ => rfl
    | ⟨1, _⟩ => rfl)
  have hb : idx_main_v9 (idx_main_v10 (ix2 e k)) = ix1 k := funext fun a => Fin.ext (by
    match a with
    | ⟨0, _⟩ => rfl)
  have hj := Cert.Spec.joined_dot (fun a => val_main_v6 (F := Ideal) x0 x2 (ix2 e a)) (fun a => x1 (ix2 e a))
    (fun j => x4 (ix2 j k))
  simp only [hl, hr, hb, joined_apply, Ideal.maximumf_def, Ideal.addf_def, Ideal.ofBits_def, Ideal.ofBits_zero_f32]
  rw [hj]

/-- The messages are the edge network of the gathered source rows and the edges' own rows. -/
theorem messages_eq :
    val_main_v16 (F := Ideal) x0 x1 x2 x4 x5 x6 x7
      = Cert.Spec.edgeMsg (val_main_v6 (F := Ideal) x0 x2) x1 x4 x5 x6 x7 := by
  funext i
  obtain ⟨e, q, rfl⟩ : ∃ (e : Fin 800000) (q : Fin 128), i = ix2 e q := ⟨i 0, i 1, eq_ix2 i⟩
  rw [val_main_v16_apply, val_main_v13_apply, val_main_v15_apply, val_main_v14_apply]
  have hl : ∀ k : Fin 128, lidx_main_v13 (ix2 e q) k = ix2 e k := fun k => funext fun a => Fin.ext (by
    match a with
    | ⟨0, _⟩ => rfl
    | ⟨1, _⟩ => rfl)
  have hr : ∀ k : Fin 128, ridx_main_v13 (ix2 e q) k = ix2 k q := fun k => funext fun a => Fin.ext (by
    match a with
    | ⟨0, _⟩ => rfl
    | ⟨1, _⟩ => rfl)
  have hb : idx_main_v14 (idx_main_v15 (ix2 e q)) = ix1 q := funext fun a => Fin.ext (by
    match a with
    | ⟨0, _⟩ => rfl)
  simp only [hl, hr, hb, edge_hidden_apply, Ideal.addf_def]
  rfl

/-- The node network's input: the summed messages plus the node features, as arrays. -/
theorem node_input_eq :
    val_main_v20 (F := Ideal) x0 x1 x2 x3 x4 x5 x6 x7
      = addf (F := Ideal) (s := S50000x128) (φ := .f32) (val_main_v19 (F := Ideal) x0 x1 x2 x3 x4 x5 x6 x7) x0 := rfl

/-- The node network's hidden layer at node `n`, unit `k`, the summed messages kept as the reference's stage. -/
theorem node_hidden_apply (n : Fin 50000) (k : Fin 128) :
    val_main_v25 (F := Ideal) x0 x1 x2 x3 x4 x5 x6 x7 x8 x9 (ix2 n k)
      = max ((∑ a : Fin 128, (val_main_v19 (F := Ideal) x0 x1 x2 x3 x4 x5 x6 x7 (ix2 n a) + x0 (ix2 n a)) * x8 (ix2 a k))
          + x9 (ix1 k)) 0 := by
  have hl : ∀ a : Fin 128, lidx_main_v21 (ix2 n k) a = ix2 n a := fun j => funext fun a => Fin.ext (by
    match a with
    | ⟨0, _⟩ => rfl
    | ⟨1, _⟩ => rfl)
  have hr : ∀ a : Fin 128, ridx_main_v21 (ix2 n k) a = ix2 a k := fun j => funext fun a => Fin.ext (by
    match a with
    | ⟨0, _⟩ => rfl
    | ⟨1, _⟩ => rfl)
  have hb : idx_main_v22 (idx_main_v23 (ix2 n k)) = ix1 k := funext fun a => Fin.ext (by
    match a with
    | ⟨0, _⟩ => rfl)
  rw [val_main_v25_apply, val_main_v24_apply, val_main_v21_apply, val_main_v23_apply, val_main_v22_apply,
    val_main_call1_v0_apply, val_main_call1_cst_apply, hb, node_input_eq]
  generalize val_main_v19 (F := Ideal) x0 x1 x2 x3 x4 x5 x6 x7 = s
  rw [Ideal.maximumf_def, Ideal.addf_def, Ideal.ofBits_def, Ideal.ofBits_zero_f32]
  refine congrArg (fun z => max (z + x9 (ix1 k)) 0) (Finset.sum_congr rfl fun a _ => ?_)
  rw [hl, hr, addf_apply]

/-- The result is the node network of the summed messages and the node features. -/
theorem nodes_eq :
    val_main_v29 (F := Ideal) x0 x1 x2 x3 x4 x5 x6 x7 x8 x9 x10 x11
      = Cert.Spec.nodeOut (val_main_v19 (F := Ideal) x0 x1 x2 x3 x4 x5 x6 x7) x0 x8 x9 x10 x11 := by
  funext i
  obtain ⟨n, q, rfl⟩ : ∃ (n : Fin 50000) (q : Fin 128), i = ix2 n q := ⟨i 0, i 1, eq_ix2 i⟩
  have hl : ∀ k : Fin 128, lidx_main_v26 (ix2 n q) k = ix2 n k := fun k => funext fun a => Fin.ext (by
    match a with
    | ⟨0, _⟩ => rfl
    | ⟨1, _⟩ => rfl)
  have hr : ∀ k : Fin 128, ridx_main_v26 (ix2 n q) k = ix2 k q := fun k => funext fun a => Fin.ext (by
    match a with
    | ⟨0, _⟩ => rfl
    | ⟨1, _⟩ => rfl)
  have hb : idx_main_v27 (idx_main_v28 (ix2 n q)) = ix1 q := funext fun a => Fin.ext (by
    match a with
    | ⟨0, _⟩ => rfl)
  rw [val_main_v29_apply, val_main_v26_apply, val_main_v28_apply, val_main_v27_apply, hb]
  simp only [hl, hr, node_hidden_apply, Ideal.addf_def]
  generalize val_main_v19 (F := Ideal) x0 x1 x2 x3 x4 x5 x6 x7 = s
  rfl

end Stages

/-- The reference's result is the node network over the destination-summed edge messages. -/
theorem result_eq (x0 : (⟨S50000x128, .f32⟩ : BufTy).Contents (Elt Ideal)) (x1 : (⟨S800000x128, .f32⟩ : BufTy).Contents (Elt Ideal))
    (x2 x3 : (⟨S800000, .i32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) :
    val_main_v29 (F := Ideal) x0 x1 x2 x3 x4 x5 x6 x7 x8 x9 x10 x11
      = Cert.Spec.nodeOut
          (Host.scatterAdd scatter_S50000x128_S800000x1_S800000x128_1_0_0_1 (val_main_v17 (F := Ideal)) (val_main_v18 (F := Ideal) x3)
            (Cert.Spec.edgeMsg (val_main_v6 (F := Ideal) x0 x2) x1 x4 x5 x6 x7))
          x0 x8 x9 x10 x11 := by
  rw [nodes_eq]
  unfold val_main_v19
  rw [messages_eq]

end Cert.ReferenceIdeal.RefValue

end
-- ==== Proof.lean ====
/-
  The certificate of the graph-convolution kernel against its reference.

  Both programs compute, for every node, a two-layer perceptron of the node's features plus the sum of the messages sent to
  it, each message a two-layer perceptron of the sending node's features joined with the edge's features. The reference
  joins the two feature rows and multiplies by the whole [256, 128] first-layer weight; the kernel multiplies the two rows
  by the weight's upper and lower halves and adds: the same sum over 256 positions, split at 128. The kernel runs the two
  perceptrons as two launches over row blocks, with the gather of the source rows and the sum by destination between and
  around them as the same operations the reference applies; its low-precision casts are the identity on extended reals.
  No step needs a finite input: only the order and grouping of a finite sum changes.

  The three frames are the generated ones (the reference's is its generated run with the result dropped); no rewrite was
  applied when the kernel was idealized, so there is nothing to preserve; the value claim joins the kernel's result
  (`Cert.KernelIdeal.Value.run`) and the reference's (`Cert.ReferenceIdeal.RefValue.result_eq` over its generated run).
-/
import proofs.«117070_j24988119728418_1_alg».proof.Defs
import proofs.«117070_j24988119728418_1_alg».proof.Proof.Gen.Kernel
import proofs.«117070_j24988119728418_1_alg».proof.Proof.Gen.Kernel.Skeleton
import proofs.«117070_j24988119728418_1_alg».proof.Proof.Gen.Kernel.Launch
import proofs.«117070_j24988119728418_1_alg».proof.Proof.Gen.Kernel.Points
import proofs.«117070_j24988119728418_1_alg».proof.Proof.Gen.Kernel.Frame
import proofs.«117070_j24988119728418_1_alg».proof.Proof.Gen.KernelIdeal
import proofs.«117070_j24988119728418_1_alg».proof.Proof.Gen.KernelIdeal.Skeleton
import proofs.«117070_j24988119728418_1_alg».proof.Proof.Gen.KernelIdeal.Launch
import proofs.«117070_j24988119728418_1_alg».proof.Proof.Gen.KernelIdeal.Points
import proofs.«117070_j24988119728418_1_alg».proof.Proof.Gen.KernelIdeal.Frame
import proofs.«117070_j24988119728418_1_alg».proof.Proof.Gen.ReferenceIdeal
import proofs.«117070_j24988119728418_1_alg».proof.Proof.Gen.ReferenceIdeal.Run
import proofs.«117070_j24988119728418_1_alg».proof.Proof.Gen.ReferenceIdeal.Read
import proofs.«117070_j24988119728418_1_alg».proof.Proof.Gen.Pre_finite_inputs
import proofs.«117070_j24988119728418_1_alg».proof.Proof.KernelValue
import proofs.«117070_j24988119728418_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The dimension numbers of the gather and of the destination sum are printed once per program; the two copies are the
    same records. -/
theorem gather_dims_eq : Cert.ReferenceIdeal.gather_S50000x128_S800000x1_S800000x128_1_0_n_n_0_1_1128
    = Cert.KernelIdeal.gather_S50000x128_S800000x1_S800000x128_1_0_n_n_0_1_1128 := rfl
theorem scatter_dims_eq : Cert.ReferenceIdeal.scatter_S50000x128_S800000x1_S800000x128_1_0_0_1
    = Cert.KernelIdeal.scatter_S50000x128_S800000x1_S800000x128_1_0_0_1 := rfl

/-- From memories that agree on the arguments the two idealized programs end with the same result array: the kernel's
    is `Cert.KernelIdeal.Value.result`, and the reference's term is the same function of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v29_eq, Cert.ReferenceIdeal.RefValue.result_eq, e0, e1, e2, e3, e4, e5, e6, e7, e8, e9, e10, e11]
  unfold Cert.KernelIdeal.Value.result Cert.ReferenceIdeal.Read.val_main_v6 Cert.ReferenceIdeal.Read.val_main_v17
    Cert.ReferenceIdeal.Read.val_main_v18
  rw [gather_dims_eq, scatter_dims_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
